-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S16x256x256 : Shape := ⟨3, ![16, 256, 256]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S16x256x256 : S_.BroadcastsInDim S16x256x256 (![] : Fin 0 → Fin S16x256x256.rank)
  reducesTo_S16x256x256_S_d0_1_2 : S16x256x256.ReducesTo [0, 1, 2] S_

variable [Facts]

def fn {F : FTy → Type} [FloatOps F] (main_arg0 : FVec F S4096x8192 .f32) (main_arg1 : FVec F S16x256x256 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S16x256x256 .f32 := Host.absf main_arg1
  let main_cst_0 : FVec F S_ .f32 := constant S_ .f32 0x7F800000#32
  let main_v5 : FVec F S16x256x256 .f32 := broadcastInDim S16x256x256 ![] bcast_S_S16x256x256 main_cst_0
  let main_v6 : IVec S16x256x256 1 := cmpf .olt main_v4 main_v5
  let main_c_1 : IVec S_ 1 := constantI S_ 1 1#1
  let main_v7 : IVec S_ 1 := (fun x v => Host.reduce IntOp.andi x v reducesTo_S16x256x256_S_d0_1_2 h_S_) main_v6 main_c_1
  let main_v8 : IVec S_ 1 := andi main_v3 main_v7
  main_v8
-- ==== Kernel.lean ====
abbrev S4096x8192 : Shape := ⟨2, ![4096, 8192]⟩
abbrev S16x256x256 : Shape := ⟨3, ![16, 256, 256]⟩
abbrev S1x256x256 : Shape := ⟨3, ![1, 256, 256]⟩
abbrev S256x4096 : Shape := ⟨2, ![256, 4096]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S16x256x256, .f32⟩
  | .hbm, ⟨2, _⟩ => ⟨S4096x8192, .f32⟩
  | .local _ .vmem, ⟨0, _⟩ => ⟨S1x256x256, .f32⟩
  | .local _ .vmem, ⟨1, _⟩ => ⟨S1x256x256, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  dot_S256x256_S256x4096_S256x4096_1_0_0_1_n_n_wf : DotDims.WF S256x256 S256x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S16x256x256.size a
  hwx0_0 : ∀ i : grid0.Coords, EltTy.bits .f32 = 32 ∨ (Rect.block (s := S16x256x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x8192.size a
  hwx0_1 : ∀ i : grid0.Coords, EltTy.bits .f32 = 32 ∨ (Rect.block (s := S4096x8192) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x8192.size a
  hwx0_2 : ∀ i : grid0.Coords, EltTy.bits .f32 = 32 ∨ (Rect.block (s := S4096x8192) S256x4096.size (cc0_transform_2 i) (hinb0_2 i)).WholeWords (EltTy.packing .f32)

variable [Facts₀]

def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf

abbrev win0_0 : Pipeline.Window sig grid0 :=
  Pipeline.Window.ofSpec (Memref.whole main_arg1) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S16x256x256 : Shape := ⟨3, ![16, 256, 256]⟩
abbrev S16x256x8192 : Shape := ⟨3, ![16, 256, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S16x256x256, .f32⟩
  | .hbm, ⟨2, _⟩ => ⟨S16x256x8192, .f32⟩
  | .hbm, ⟨3, _⟩ => ⟨S16x256x8192, .f32⟩
  | .hbm, ⟨4, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S4096x8192_S16x256x8192 : S4096x8192.ShapeCasts S16x256x8192
  shapeCasts_S16x256x8192_S4096x8192 : S16x256x8192.ShapeCasts S4096x8192
  dot_S16x256x256_S16x256x8192_S16x256x8192_2_1_1_2_0_0_wf : DotDims.WF S16x256x256 S16x256x8192 S16x256x8192 [2] [1] [1] [2] [0] [0]

variable [Facts₀]

def dot_S16x256x256_S16x256x8192_S16x256x8192_2_1_1_2_0_0 : DotDims S16x256x256 S16x256x8192 S16x256x8192 where
  lhsContracting := [2]
  rhsContracting := [1]
  lhsNonContracting := [1]
  rhsNonContracting := [2]
  lhsBatch := [0]
  rhsBatch := [0]
  wf := dot_S16x256x256_S16x256x8192_S16x256x8192_2_1_1_2_0_0_wf

class Facts : Prop extends Facts₀ where

variable [Facts]
-- ==== Proof.BlockDiagSpec.lean ====
/-
  The block-diagonal product, entry by entry.

  The weights are sixteen square matrices W₀ … W₁₅ of order 256, and the data matrix X has 4096 = 16 · 256 rows and
  8192 columns. Row r of X belongs to diagonal block b = r / 256 and is row p = r % 256 inside it; rows
  256·b … 256·b + 255 of X are the rows block b acts on. The product diag(W₀, …, W₁₅) · X has, at row r and column n,

      ∑ k < 256,  W_b[p, k] · X[256·b + k, n].

  Both programs compute exactly this sum of 256 products over the extended reals (no rounding, a change of float
  format is the identity), each in its own tiling: that is all the certificate says about values. The sum is
  taken over `Fin 256` as a finite sum in a commutative monoid, so neither side's order of accumulation matters,
  and no law that could fail at an infinity (distributivity, cancellation) is used anywhere.
-/
import Idealize.ShloMosaic.PureOps.Ideal
import Idealize.ShloMosaic.Lib.ValueIdx

noncomputable section

open scoped BigOperators

namespace Cert.BlockDiag

open Idealize.ShloMosaic Idealize.ShloMosaic.ValueIdx

/-- The diagonal block a row of the 4096-row matrix belongs to: sixteen blocks of 256 consecutive rows. -/
def blockOf (r : Fin 4096) : Fin 16 := ⟨r.val / 256, by have := r.isLt; omega⟩

/-- The row's position inside its block. -/
def rowIn (r : Fin 4096) : Fin 256 := ⟨r.val % 256, Nat.mod_lt _ (by decide)⟩

/-- Row `k` of block `b`, counted among all 4096 rows. -/
def rowAt (b : Fin 16) (k : Fin 256) : Fin 4096 := ⟨b.val * 256 + k.val, by have := b.isLt; have := k.isLt; omega⟩

@[simp] theorem blockOf_val (r : Fin 4096) : (blockOf r).val = r.val / 256 := rfl
@[simp] theorem rowIn_val (r : Fin 4096) : (rowIn r).val = r.val % 256 := rfl
@[simp] theorem rowAt_val (b : Fin 16) (k : Fin 256) : (rowAt b k).val = b.val * 256 + k.val := rfl

/-- One entry of `diag(W₀, …, W₁₅) · X`: row `r`, column `n`. -/
def entry (x : FVec Ideal ⟨2, ![4096, 8192]⟩ .f32) (w : FVec Ideal ⟨3, ![16, 256, 256]⟩ .f32) (r : Fin 4096) (n : Fin 8192) : EReal :=
  ∑ k : Fin 256, w (ix3 (blockOf r) (rowIn r) k) * x (ix2 (rowAt (blockOf r) k) n)

/-- The whole product as an array of 4096 × 8192 extended reals. -/
def blockDiagMul (x : FVec Ideal ⟨2, ![4096, 8192]⟩ .f32) (w : FVec Ideal ⟨3, ![16, 256, 256]⟩ .f32) :
    FVec Ideal ⟨2, ![4096, 8192]⟩ .f32 :=
  fun i => entry x w (i 0) (i 1)

theorem blockDiagMul_apply (x : FVec Ideal ⟨2, ![4096, 8192]⟩ .f32) (w : FVec Ideal ⟨3, ![16, 256, 256]⟩ .f32)
    (r : Fin 4096) (n : Fin 8192) : blockDiagMul x w (ix2 r n) = entry x w r n := rfl

/-- A row written as "row `p` of block `b`" lies in block `b` … -/
theorem blockOf_rowAt (b : Fin 16) (p : Fin 256) : blockOf (rowAt b p) = b :=
  Fin.ext (by have := p.isLt; show (b.val * 256 + p.val) / 256 = b.val; omega)

/-- … at position `p`. -/
theorem rowIn_rowAt (b : Fin 16) (p : Fin 256) : rowIn (rowAt b p) = p :=
  Fin.ext (by have := p.isLt; show (b.val * 256 + p.val) % 256 = p.val; omega)

/-- The entry at row `p` of block `b`: block `b`'s row `p` against the column's 256 entries in block `b`'s rows. -/
theorem entry_rowAt (x : FVec Ideal ⟨2, ![4096, 8192]⟩ .f32) (w : FVec Ideal ⟨3, ![16, 256, 256]⟩ .f32)
    (b : Fin 16) (p : Fin 256) (n : Fin 8192) :
    entry x w (rowAt b p) n = ∑ k : Fin 256, w (ix3 b p k) * x (ix2 (rowAt b k) n) := by
  unfold entry
  rw [blockOf_rowAt, rowIn_rowAt]

end Cert.BlockDiag

end
-- ==== Proof.BlockProduct.lean ====
/-
  What the kernel's body computes from the two blocks it loads, read at one entry.

  At a grid point the body holds one weight block, a [1, 256, 256] slab, and one [256, 4096] slab of the data
  matrix. It drops the slab's unit axis, narrows both operands to bf16 — at the extended reals a change of float
  format is the identity — and multiplies them on the matrix unit into a zero accumulator. So entry (p, q) of what it
  stores is `∑ k < 256, w[0, p, k] · x[k, q]`: the accumulator contributes `0 + `, the contraction index of the
  product is its one coordinate `k`, and the slab without its unit axis is read at the same row-major position.
-/
import proofs.«105466_j27384711479625_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx

/-! ## The matrix product's operand indices, axis by axis

The product contracts the left operand's axis 1 with the right operand's axis 0; the left operand's axis 0 and the
right operand's axis 1 are the result's two axes. -/

theorem lhs_row (i : S256x4096.Idx) (q : dot_S256x256_S256x4096_S256x4096_1_0_0_1_n_n.contr.Idx) :
    (dot_S256x256_S256x4096_S256x4096_1_0_0_1_n_n.lhsIdx i q 0).val = (i 0).val := by
  unfold DotDims.lhsIdx
  rw [dif_neg (show ¬(0 : Fin S256x256.rank) ∈ dot_S256x256_S256x4096_S256x4096_1_0_0_1_n_n.lhsBatch by decide), dif_pos (show (0 : Fin S256x256.rank) ∈ dot_S256x256_S256x4096_S256x4096_1_0_0_1_n_n.lhsNonContracting by decide)]
  rfl

theorem lhs_contr (i : S256x4096.Idx) (q : dot_S256x256_S256x4096_S256x4096_1_0_0_1_n_n.contr.Idx) :
    (dot_S256x256_S256x4096_S256x4096_1_0_0_1_n_n.lhsIdx i q 1).val = (q ⟨0, by decide⟩).val :=
  dot_S256x256_S256x4096_S256x4096_1_0_0_1_n_n.lhsIdx_val_of_single rfl i q

theorem rhs_contr (i : S256x4096.Idx) (q : dot_S256x256_S256x4096_S256x4096_1_0_0_1_n_n.contr.Idx) :
    (dot_S256x256_S256x4096_S256x4096_1_0_0_1_n_n.rhsIdx i q 0).val = (q ⟨0, by decide⟩).val :=
  dot_S256x256_S256x4096_S256x4096_1_0_0_1_n_n.rhsIdx_val_of_single rfl i q

theorem rhs_col (i : S256x4096.Idx) (q : dot_S256x256_S256x4096_S256x4096_1_0_0_1_n_n.contr.Idx) :
    (dot_S256x256_S256x4096_S256x4096_1_0_0_1_n_n.rhsIdx i q 1).val = (i 1).val := by
  unfold DotDims.rhsIdx
  rw [dif_neg (show ¬(1 : Fin S256x4096.rank) ∈ dot_S256x256_S256x4096_S256x4096_1_0_0_1_n_n.rhsBatch by decide), dif_pos (show (1 : Fin S256x4096.rank) ∈ dot_S256x256_S256x4096_S256x4096_1_0_0_1_n_n.rhsNonContracting by decide)]
  rfl

/-! ## The slab without its unit axis -/

/-- Entry (p, k) of the [256, 256] matrix is entry (0, p, k) of the [1, 256, 256] slab: the same row-major position. -/
theorem slab_apply (w : FVec Ideal S1x256x256 .f32) (p k : Fin 256) :
    shapeCast S256x256 w shapeCasts_S1x256x256_S256x256 (ix2 p k) = w (ix3 (0 : Fin 1) p k) :=
  shapeCast_apply w shapeCasts_S1x256x256_S256x256 (ix2 p k) (ix3 (0 : Fin 1) p k)
    (by rewrite [Shape.rowMajor_val_three, Shape.rowMajor_val_two]
        show ((0 : Nat) * 256 + p.val) * 256 + k.val = p.val * 256 + k.val
        omega)

/-! ## The stored value at an entry -/

/-- Entry (p, q) of what the body stores: row `p` of the weight block against column `q` of the data slab. -/
theorem stored_apply (w : FVec Ideal S1x256x256 .f32) (x : FVec Ideal S256x4096 .f32) (p : Fin 256) (q : Fin 4096) :
    k0_pay1 (F := Ideal) w x (ix2 p q) = ∑ k : Fin 256, w (ix3 (0 : Fin 1) p k) * x (ix2 k q) := by
  unfold k0_pay1
  simp only [matmul]
  rw [Ideal.matmul_constant_zero_apply, ← Equiv.sum_comp (contrEquiv1 dot_S256x256_S256x4096_S256x4096_1_0_0_1_n_n 256 rfl rfl).symm]
  refine Finset.sum_congr rfl fun k _ => ?_
  have hk := contrEquiv1_symm_val dot_S256x256_S256x4096_S256x4096_1_0_0_1_n_n 256 rfl rfl k
  have el : dot_S256x256_S256x4096_S256x4096_1_0_0_1_n_n.lhsIdx (ix2 p q) ((contrEquiv1 dot_S256x256_S256x4096_S256x4096_1_0_0_1_n_n 256 rfl rfl).symm k) = ix2 p k := funext fun a => Fin.ext (by
    match a with
    | ⟨0, _⟩ => exact lhs_row _ _
    | ⟨1, _⟩ => exact (lhs_contr _ _).trans hk)
  have er : dot_S256x256_S256x4096_S256x4096_1_0_0_1_n_n.rhsIdx (ix2 p q) ((contrEquiv1 dot_S256x256_S256x4096_S256x4096_1_0_0_1_n_n 256 rfl rfl).symm k) = ix2 k q := funext fun a => Fin.ext (by
    match a with
    | ⟨0, _⟩ => exact (rhs_contr _ _).trans hk
    | ⟨1, _⟩ => exact rhs_col _ _)
  rw [el, er]
  show shapeCast S256x256 w shapeCasts_S1x256x256_S256x256 (ix2 p k) * x (ix2 k q) = _
  rw [slab_apply]

end Cert.KernelIdeal.BlockProduct

end
-- ==== Proof.KernelValue.lean ====
/-
  The kernel computes the block-diagonal product.

  The kernel runs on a 16 × 2 grid. At the point with coordinates (b, h) it is handed weight block `b` (block
  (b, 0, 0) of the [16, 256, 256] array, a [1, 256, 256] slab), and block (b, h) of the data matrix in [256, 4096]
  blocks: rows 256·b … 256·b + 255, columns 4096·h … 4096·h + 4095. It writes back block (b, h) of the result in the
  same blocking. Entry (p, q) of what it writes is `∑ k < 256, W[b, p, k] · X[256·b + k, 4096·h + q]` (the body's
  product read at an entry), and entry (p, q) of block (b, h) of the block-diagonal product — row 256·b + p, which
  lies in diagonal block `b` at position `p`, column 4096·h + q — is the same sum. The 32 blocks tile the result
  (row r, column n is in the block of the point with b = r / 256, h = n / 4096), so after the run the result array
  IS the block-diagonal product of the two argument arrays.
-/
import proofs.«105466_j27384711479625_1_alg».proof.Proof.Gen.KernelIdeal.Value
import proofs.«105466_j27384711479625_1_alg».proof.Proof.BlockProduct
import proofs.«105466_j27384711479625_1_alg».proof.Proof.BlockDiagSpec

noncomputable section

open scoped BigOperators

namespace Cert.KernelIdeal.BlockValue

open Cert.KernelIdeal Cert.KernelIdeal.Gen Cert.KernelIdeal.Value Cert.KernelIdeal.BlockProduct Cert.BlockDiag
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The three windows' block indices at a grid point, decided over the 32 points: the weight window sits at
    (b, 0, 0), the data window and the result window both at (b, h), with b < 16 and h < 2. -/
theorem block_indices : ∀ t : Fin cfg0.N,
    win0_0.index t (0 : Fin 3) = win0_2.index t (0 : Fin 2)
    ∧ win0_0.index t (1 : Fin 3) = 0
    ∧ win0_0.index t (2 : Fin 3) = 0
    ∧ win0_1.index t (0 : Fin 2) = win0_2.index t (0 : Fin 2)
    ∧ win0_1.index t (1 : Fin 2) = win0_2.index t (1 : Fin 2)
    ∧ win0_2.index t (0 : Fin 2) ≤ 15
    ∧ win0_2.index t (1 : Fin 2) ≤ 1 :=
  (by decide +kernel : ∀ t : Fin grid0.N, _)

/-- Every one of the 16 × 2 result blocks is some grid point's. -/
theorem blocks_onto : ∀ (b : Fin 16) (h : Fin 2), ∃ t : Fin cfg0.N, win0_2.index t = ![b.val, h.val] :=
  (by decide +kernel : ∀ (b : Fin 16) (h : Fin 2), ∃ t : Fin grid0.N, win0_2.index t = ![b.val, h.val])

/-- One grid point's arithmetic, free of the pipeline: if the loaded weight slab `w` is block `b` of the weights `W`
    along row `p`, and the loaded data block `x` is, down column `q`, the rows of block `b` in column `n` of the
    data matrix `X`, then entry (p, q) of what the body stores is entry (256·b + p, n) of the block-diagonal product. -/
theorem stored_eq_entry (W : FVec Ideal S16x256x256 .f32) (X : FVec Ideal S4096x8192 .f32)
    (w : FVec Ideal S1x256x256 .f32) (x : FVec Ideal S256x4096 .f32) (b : Fin 16) (n : Fin 8192) (p : Fin 256) (q : Fin 4096)
    (hw : ∀ k : Fin 256, w (ix3 (0 : Fin 1) p k) = W (ix3 b p k))
    (hx : ∀ k : Fin 256, x (ix2 k q) = X (ix2 (rowAt b k) n)) :
    k0_pay1 (F := Ideal) w x (ix2 p q) = blockDiagMul X W (ix2 (rowAt b p) n) := by
  rw [stored_apply, blockDiagMul_apply, entry_rowAt]
  exact Finset.sum_congr rfl fun k _ => by rw [hw k, hx k]

/-- What grid point `t` writes back is block `t` of the block-diagonal product of the argument arrays. -/
theorem flushed_eq (c : Dev nD) (t : Fin cfg0.N) :
    (dats m 0 c).flushed 2 t
      = ((cfg0.win 2).blk t).view.read (Elt Ideal) (blockDiagMul (V m c main_arg0) (V m c main_arg1)) := by
  rw [flushed2]
  unfold out0_2
  rw [View.canon_unit_zero zeros2]
  simp only [View.ld_unit_zero (S := S1x256x256) zeros3, View.ld_unit_zero (S := S256x4096) zeros2]
  obtain ⟨e0, e1, e2, e3, e4, e5, e6⟩ := block_indices t
  funext j
  obtain ⟨p, q, rfl⟩ : ∃ (p : Fin 256) (q : Fin 4096), j = ix2 p q := ⟨j 0, j 1, eq_ix2 j⟩
  have hp := p.isLt
  have hq := q.isLt
  show k0_pay1 (F := Ideal) (iblk m c 0 t) (iblk m c 1 t) (ix2 p q)
      = blockDiagMul (V m c main_arg0) (V m c main_arg1) (((cfg0.win 2).blk t).view.emb (ix2 p q))
  -- the result entry's place in the whole array: row `p` of diagonal block `b`, column `4096·h + q`
  have hout : ((cfg0.win 2).blk t).view.emb (ix2 p q)
      = ix2 (rowAt ⟨win0_2.index t (0 : Fin 2), by omega⟩ p) (⟨win0_2.index t (1 : Fin 2) * 4096 + q.val, by omega⟩ : Fin 8192) := by
    funext a; apply Fin.ext
    match a with
    | ⟨0, _⟩ => show win0_2.index t (0 : Fin 2) * 256 + 1 * p.val = win0_2.index t (0 : Fin 2) * 256 + p.val; omega
    | ⟨1, _⟩ => show win0_2.index t (1 : Fin 2) * 4096 + 1 * q.val = win0_2.index t (1 : Fin 2) * 4096 + q.val; omega
  rw [hout]
  -- the weight block's entry (0, p, k) is entry (b, p, k) of the weights
  have hw : ∀ k : Fin 256, ((cfg0.win 0).blk t).view.emb (ix3 (0 : Fin 1) p k)
      = ix3 (⟨win0_2.index t (0 : Fin 2), by omega⟩ : Fin 16) p k := fun k => by
    have hk := k.isLt
    funext a; apply Fin.ext
    match a with
    | ⟨0, _⟩ => show win0_0.index t (0 : Fin 3) * 1 + 1 * 0 = win0_2.index t (0 : Fin 2); omega
    | ⟨1, _⟩ => show win0_0.index t (1 : Fin 3) * 256 + 1 * p.val = p.val; omega
    | ⟨2, _⟩ => show win0_0.index t (2 : Fin 3) * 256 + 1 * k.val = k.val; omega
  -- the data block's entry (k, q) is entry (256·b + k, 4096·h + q) of the data matrix
  have hx : ∀ k : Fin 256, ((cfg0.win 1).blk t).view.emb (ix2 k q)
      = ix2 (rowAt ⟨win0_2.index t (0 : Fin 2), by omega⟩ k) (⟨win0_2.index t (1 : Fin 2) * 4096 + q.val, by omega⟩ : Fin 8192) := fun k => by
    have hk := k.isLt
    funext a; apply Fin.ext
    match a with
    | ⟨0, _⟩ => show win0_1.index t (0 : Fin 2) * 256 + 1 * k.val = win0_2.index t (0 : Fin 2) * 256 + k.val; omega
    | ⟨1, _⟩ => show win0_1.index t (1 : Fin 2) * 4096 + 1 * q.val = win0_2.index t (1 : Fin 2) * 4096 + q.val; omega
  exact stored_eq_entry (V m c main_arg1) (V m c main_arg0) (iblk m c 0 t) (iblk m c 1 t)
    ⟨win0_2.index t (0 : Fin 2), by omega⟩ ⟨win0_2.index t (1 : Fin 2) * 4096 + q.val, by omega⟩ p q
    (fun k => congrArg (V m c main_arg1) (hw k)) (fun k => congrArg (V m c main_arg0) (hx k))

/-- An entry of the result array is in point `t`'s block iff each coordinate is in the block's range on its axis. -/
theorem mem_block (t : Fin cfg0.N) (i : S4096x8192.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v0).slice (win0_2.rect t)).set ↔ _
  rw [View.set_slice_whole, Rect.mem_set_unit]
  exact Iff.rfl

/-- The blocks tile the result: row `r`, column `n` is in the block of the point with b = r / 256, h = n / 4096. -/
theorem covered (i : S4096x8192.Idx) :
    ∃ t : Fin cfg0.N, (cfg0.win 2).flush t = true ∧ i ∈ ((cfg0.win 2).blk t).view.set := by
  have hi0 : (i 0).val < 4096 := (i 0).isLt
  have hi1 : (i 1).val < 8192 := (i 1).isLt
  obtain ⟨t, ht⟩ := blocks_onto ⟨(i 0).val / 256, by omega⟩ ⟨(i 1).val / 4096, by omega⟩
  have q0 : win0_2.index t (0 : Fin 2) = (i 0).val / 256 := congrFun ht 0
  have q1 : win0_2.index t (1 : Fin 2) = (i 1).val / 4096 := congrFun ht 1
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- After the run the result array is the block-diagonal product of the argument arrays as launched. -/
theorem final (c : Dev nD) :
    (dats m 0 c).arrAt 2 cfg0.N
      = blockDiagMul (m ((c : Thread nD τ).loc main_arg0)) (m ((c : Thread nD τ).loc main_arg1)) :=
  (dats m 0 c).arrAt_eq_of_cover 2 (blockDiagMul (V m c main_arg0) (V m c main_arg1)) (fun t _ => flushed_eq m c t) covered

/-- The kernel's run, with the result named: every weakly fair execution terminates, the result array holding the
    block-diagonal product of the arguments and the arguments unchanged. -/
theorem run : θ_run defs (onTc (τ := τ) (main (F := Ideal))) ⟨m, fun _ => 0, ρ⟩ fun r => ∀ c : Dev nD,
      r.2.mem ((c : Thread nD τ).loc main_v0)
        = blockDiagMul (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.BlockValue

end
-- ==== Proof.ReferenceValue.lean ====
/-
  The reference computes the block-diagonal product.

  The reference views the data matrix as sixteen [256, 8192] slabs (a reshape: entry (b, j, n) of the view is entry
  (256·b + j, n) of the matrix), multiplies slab `b` by weight block `b` — a batched product, batch axis `b`,
  contracting the block's columns with the slab's rows — and views the [16, 256, 8192] result as a [4096, 8192] matrix
  again (entry (r, n) of the matrix is entry (r / 256, r % 256, n) of the result). Read at an entry, through the
  generated index-by-index lemmas for the three operations, that is
  `∑ k < 256, W[r / 256, r % 256, k] · X[256·(r / 256) + k, n]`: the specification's entry. What is left to prove is
  that the composed index functions are the specification's indices, which is arithmetic of quotients and remainders.
-/
import proofs.«105466_j27384711479625_1_alg».proof.Proof.Gen.ReferenceIdeal.Read
import proofs.«105466_j27384711479625_1_alg».proof.Proof.BlockDiagSpec

noncomputable section

open scoped BigOperators

namespace Cert.ReferenceIdeal.BlockValue

open Cert.ReferenceIdeal Cert.ReferenceIdeal.Gen Cert.ReferenceIdeal.Read Cert.BlockDiag
open Idealize.ShloMosaic Idealize.ShloMosaic.ValueIdx

/-- The weight entry the batched product reads for result entry (r, n) and contraction index k: block `r / 256`,
    row `r % 256`, column `k`. -/
theorem weight_index (r : Fin 4096) (n : Fin 8192) (k : Fin 256) :
    lidx_main_v1 (idx_main_v2 (ix2 r n)) k = ix3 (blockOf r) (rowIn r) k := by
  have hr := r.isLt
  have hn := n.isLt
  funext a
  apply Fin.ext
  match a with
  | ⟨0, _⟩ => show (r.val * 8192 + n.val) / 2097152 = r.val / 256; omega
  | ⟨1, _⟩ => show (r.val * 8192 + n.val) / 8192 % 256 = r.val % 256; omega
  | ⟨2, _⟩ => rfl

/-- The data entry it reads: through the first reshape, row `256 · (r / 256) + k` and column `n` of the matrix. -/
theorem data_index (r : Fin 4096) (n : Fin 8192) (k : Fin 256) :
    idx_main_v0 (ridx_main_v1 (idx_main_v2 (ix2 r n)) k) = ix2 (rowAt (blockOf r) k) n := by
  have hr := r.isLt
  have hn := n.isLt
  have hk := k.isLt
  funext a
  apply Fin.ext
  match a with
  | ⟨0, _⟩ =>
    show ((((r.val * 8192 + n.val) / 2097152) * 256 + k.val) * 8192 + (r.val * 8192 + n.val) % 8192) / 8192 = r.val / 256 * 256 + k.val
    omega
  | ⟨1, _⟩ =>
    show ((((r.val * 8192 + n.val) / 2097152) * 256 + k.val) * 8192 + (r.val * 8192 + n.val) % 8192) % 8192 = n.val
    omega

/-- The reference's result, as its last stage, is the block-diagonal product of its arguments. -/
theorem result_eq (x : FVec Ideal S4096x8192 .f32) (w : FVec Ideal S16x256x256 .f32) :
    val_main_v2 (F := Ideal) x w = blockDiagMul x w := by
  funext i
  obtain ⟨r, n, rfl⟩ : ∃ (r : Fin 4096) (n : Fin 8192), i = ix2 r n := ⟨i 0, i 1, eq_ix2 i⟩
  rw [val_main_v2_apply, val_main_v1_apply, blockDiagMul_apply]
  unfold entry
  refine Finset.sum_congr rfl fun k _ => ?_
  rw [val_main_v0_apply, weight_index, data_index]

end Cert.ReferenceIdeal.BlockValue

end
-- ==== Proof.lean ====
/-
  A block-diagonal matrix times a matrix: the kernel and its reference compute the same array over the extended reals.

  The weights are sixteen square matrices W₀ … W₁₅ of order 256 and the data matrix X is 4096 × 8192. The result is
  diag(W₀, …, W₁₅) · X: at row r = 256·b + p and column n,  ∑ k < 256, W_b[p, k] · X[256·b + k, n]
  (Proof/BlockDiagSpec.lean).

  The kernel tiles the result into 16 × 2 blocks of 256 × 4096 and at each grid point multiplies one weight block by
  one data block on the matrix unit, into a zero accumulator, after narrowing both operands to bf16. The reference
  reshapes X into sixteen slabs, takes one batched product and reshapes back. Over the extended reals a change of float
  format is the identity and both products are the plain finite sum over the 256 contraction indices, so
  * the kernel's stored block, read at an entry, is that sum of the loaded blocks' entries (Proof/BlockProduct.lean);
  * each grid point writes back its block of the product, and the 32 blocks tile the result, so the kernel ends with
    the whole product (Proof/KernelValue.lean);
  * the reference's three operations, read at an entry through the reshapes' row-major positions, give the same sum
    (Proof/ReferenceValue.lean).
  Only the commutative-monoid structure of the sum is used; no law that fails at an infinity is needed, so the
  finiteness of the inputs is never opened. The idealization rewrote nothing in the kernel, so that claim is trivial;
  the two kernels' frames are the generated class-A frame certificates, and the reference's frame is its run with the
  result forgotten.
-/
import proofs.«105466_j27384711479625_1_alg».proof.Defs
import proofs.«105466_j27384711479625_1_alg».proof.Proof.Gen.Kernel
import proofs.«105466_j27384711479625_1_alg».proof.Proof.Gen.Kernel.Skeleton
import proofs.«105466_j27384711479625_1_alg».proof.Proof.Gen.Kernel.Launch
import proofs.«105466_j27384711479625_1_alg».proof.Proof.Gen.Kernel.Points
import proofs.«105466_j27384711479625_1_alg».proof.Proof.Gen.Kernel.Frame
import proofs.«105466_j27384711479625_1_alg».proof.Proof.Gen.KernelIdeal
import proofs.«105466_j27384711479625_1_alg».proof.Proof.Gen.KernelIdeal.Skeleton
import proofs.«105466_j27384711479625_1_alg».proof.Proof.Gen.KernelIdeal.Launch
import proofs.«105466_j27384711479625_1_alg».proof.Proof.Gen.KernelIdeal.Points
import proofs.«105466_j27384711479625_1_alg».proof.Proof.Gen.KernelIdeal.Frame
import proofs.«105466_j27384711479625_1_alg».proof.Proof.Gen.ReferenceIdeal
import proofs.«105466_j27384711479625_1_alg».proof.Proof.Gen.Pre_finite_inputs
import proofs.«105466_j27384711479625_1_alg».proof.Proof.Gen.KernelIdeal.Value
import proofs.«105466_j27384711479625_1_alg».proof.Proof.Gen.ReferenceIdeal.Run
import proofs.«105466_j27384711479625_1_alg».proof.Proof.Gen.ReferenceIdeal.Read
import proofs.«105466_j27384711479625_1_alg».proof.Proof.BlockDiagSpec
import proofs.«105466_j27384711479625_1_alg».proof.Proof.KernelValue
import proofs.«105466_j27384711479625_1_alg».proof.Proof.ReferenceValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel ends with the block-diagonal product of its arguments, and the reference with
    its last stage of its own arguments, which is the block-diagonal product of those: the same array. -/
theorem algebraic : Cert.algebraic_KernelIdeal_ReferenceIdeal := by
  intro m ρ m' ρ' _ hagree
  refine ⟨_, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.BlockValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
